-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512x3 : Shape := ⟨4, ![64, 512, 512, 3]⟩
abbrev S_ : Shape := ⟨0, ![]⟩

class Facts : Prop where
  bcast_S_S64x512x512x3 : S_.BroadcastsInDim S64x512x512x3 (![] : Fin 0 → Fin S64x512x512x3.rank)
  reducesTo_S64x512x512x3_S_d0_1_2_3 : S64x512x512x3.ReducesTo [0, 1, 2, 3] S_
  h_S_ : 0 < S_.numel

variable [Facts]

def fn {F : FTy → Type} [FloatOps F] (main_arg0 : FVec F S64x512x512x3 .f32) : IVec S_ 1 :=
  let main_v0 : FVec F S64x512x512x3 .f32 := Host.absf main_arg0
  let main_cst : FVec F S_ .f32 := constant S_ .f32 0x7F800000#32
  let main_v1 : FVec F S64x512x512x3 .f32 := broadcastInDim S64x512x512x3 ![] bcast_S_S64x512x512x3 main_cst
  let main_v2 : IVec S64x512x512x3 1 := cmpf .olt main_v0 main_v1
  let main_c : IVec S_ 1 := constantI S_ 1 1#1
  let main_v3 : IVec S_ 1 := (fun x v => Host.reduce IntOp.andi x v reducesTo_S64x512x512x3_S_d0_1_2_3 h_S_) main_v2 main_c
  main_v3
-- ==== Kernel.lean ====
abbrev S64x512x512x3 : Shape := ⟨4, ![64, 512, 512, 3]⟩
abbrev S64x1024x16x16x3 : Shape := ⟨5, ![64, 1024, 16, 16, 3]⟩
abbrev S1x16x512x3 : Shape := ⟨4, ![1, 16, 512, 3]⟩
abbrev S1x32x16x16x3 : Shape := ⟨5, ![1, 32, 16, 16, 3]⟩
abbrev S1x16x32x16x3 : Shape := ⟨5, ![1, 16, 32, 16, 3]⟩

abbrev nBuf : Space → Nat
  | .hbm => 2
  | .vmem => 4
  | .smem => 0
  | _ => 0

abbrev bufTy : (tb : Table) → Fin (tcTables nBuf tb) → BufTy
  | .hbm, ⟨0, _⟩ => ⟨S64x512x512x3, .f32⟩
  | .hbm, ⟨1, _⟩ => ⟨S64x1024x16x16x3, .f32⟩
  | .local _ .vmem, ⟨0, _⟩ => ⟨S1x16x512x3, .f32⟩
  | .local _ .vmem, ⟨1, _⟩ => ⟨S1x16x512x3, .f32⟩
  | .local _ .vmem, ⟨2, _⟩ => ⟨S1x32x16x16x3, .f32⟩
  | .local _ .vmem, ⟨3, _⟩ => ⟨S1x32x16x16x3, .f32⟩
  | _, _ => ⟨S64x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x16x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x16x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x16x512x3_S1x16x512x3_0_0_0_0 : ∀ a, (![0, 0, 0, 0] : Fin 4 → Nat) a + S1x16x512x3.size a ≤ S1x16x512x3.size a
  h_S1x16x512x3 : 0 < S1x16x512x3.numel
  shapeCasts_S1x16x512x3_S1x16x32x16x3 : S1x16x512x3.ShapeCasts S1x16x32x16x3
  transposes_S1x16x32x16x3_p0_2_1_3_4_S1x32x16x16x3 : S1x16x32x16x3.Transposes [0, 2, 1, 3, 4] S1x32x16x16x3
  inb_S1x32x16x16x3_S1x32x16x16x3_0_0_0_0_0 : ∀ a, (![0, 0, 0, 0, 0] : Fin 5 → Nat) a + S1x32x16x16x3.size a ≤ S1x32x16x16x3.size a
  h_S1x32x16x16x3 : 0 < S1x32x16x16x3.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512x3.size a ≤ S64x512x512x3.size a
  hwx0_0 : ∀ i : grid0.Coords, EltTy.bits .f32 = 32 ∨ (Rect.block (s := S64x512x512x3) S1x16x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x16x16x3.size a ≤ S64x1024x16x16x3.size a
  hwx0_1 : ∀ i : grid0.Coords, EltTy.bits .f32 = 32 ∨ (Rect.block (s := S64x1024x16x16x3) S1x32x16x16x3.size (cc0_transform_1 i) (hinb0_1 i)).WholeWords (EltTy.packing .f32)

variable [Facts₀]

abbrev win0_0 : Pipeline.Window sig grid0 :=
  Pipeline.Window.ofSpec (Memref.whole main_arg0) S1x16x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x16x16x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x512x512x3 : Shape := ⟨4, ![64, 512, 512, 3]⟩
abbrev S64x32x16x32x16x3 : Shape := ⟨6, ![64, 32, 16, 32, 16, 3]⟩
abbrev S64x32x32x16x16x3 : Shape := ⟨6, ![64, 32, 32, 16, 16, 3]⟩
abbrev S64x1024x16x16x3 : Shape := ⟨5, ![64, 1024, 16, 16, 3]⟩

abbrev nBuf : Space → Nat
  | .hbm => 4
  | .vmem => 0
  | .smem => 0
  | _ => 0

abbrev bufTy : (tb : Table) → Fin (tcTables nBuf tb) → BufTy
  | .hbm, ⟨0, _⟩ => ⟨S64x512x512x3, .f32⟩
  | .hbm, ⟨1, _⟩ => ⟨S64x32x16x32x16x3, .f32⟩
  | .hbm, ⟨2, _⟩ => ⟨S64x32x32x16x16x3, .f32⟩
  | .hbm, ⟨3, _⟩ => ⟨S64x1024x16x16x3, .f32⟩
  | _, _ => ⟨S64x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S64x512x512x3_S64x32x16x32x16x3 : S64x512x512x3.ShapeCasts S64x32x16x32x16x3
  transposes_S64x32x16x32x16x3_S64x32x32x16x16x3_0_1_3_2_4_5 : S64x32x16x32x16x3.Transposes [0, 1, 3, 2, 4, 5] S64x32x32x16x16x3
  shapeCasts_S64x32x32x16x16x3_S64x1024x16x16x3 : S64x32x32x16x16x3.ShapeCasts S64x1024x16x16x3

variable [Facts₀]

class Facts : Prop extends Facts₀ where

variable [Facts]
-- ==== Proof.PatchSpec.lean ====
/-
  Patch extraction as one function of the image.

  An image batch `x : [64, 512, 512, 3]` is cut into non-overlapping 16×16 patches, 32 × 32 of them per image,
  numbered row-major: patch `q = 32·h + w` of image `b` is the square whose top-left pixel is `(16·h, 16·w)`. The
  result `[64, 1024, 16, 16, 3]` holds, at `(b, q, r, s, c)`, the image's entry `(b, 16·(q / 32) + r, 16·(q % 32) + s, c)`.
  Nothing is computed: every entry of the result is one entry of the image (`patches`), whatever the element type.

  One way to spell this function on the whole batch: split both image axes (`[64, 32, 16, 32, 16, 3]`), swap the two
  middle axes (`[64, 32, 32, 16, 16, 3]`) and merge the two block axes (`reshape_transpose_reshape`). A reshape keeps
  the row-major position and a transpose permutes coordinates, so each step is one equation between positions:
  with `q = 32·h + w`, position `((((b·32 + h)·32 + w)·16 + r)·16 + s)·3 + c` of the swapped array is position
  `(((b·1024 + q)·16 + r)·16 + s)·3 + c` of the result, and position `((((b·32 + h)·16 + r)·32 + w)·16 + s)·3 + c` of the
  split array is position `((b·512 + 16·h + r)·512 + 16·w + s)·3 + c` of the image.
-/
import Idealize.ShloMosaic.Lib.ValueIdx
import Idealize.ShloMosaic.Lib.ValueIdxRank6
import Idealize.ShloMosaic.Lib.Pipeline.Value

namespace Cert.Patches

open Idealize.ShloMosaic Idealize.ShloMosaic.ValueIdx

/-- The image batch. -/
abbrev Img : Shape := ⟨4, ![64, 512, 512, 3]⟩
/-- The patches. -/
abbrev Out : Shape := ⟨5, ![64, 1024, 16, 16, 3]⟩
/-- The image with both spatial axes split into (block, offset). -/
abbrev Split : Shape := ⟨6, ![64, 32, 16, 32, 16, 3]⟩
/-- The same with the two block axes in front of the two offsets. -/
abbrev Swapped : Shape := ⟨6, ![64, 32, 32, 16, 16, 3]⟩

/-- The image entry that patch `q` of image `b` holds at row `r`, column `s`, channel `c`. -/
def src (b : Fin 64) (q : Fin 1024) (r s : Fin 16) (c : Fin 3) : Img.Idx :=
  ix4 b (⟨q.val / 32 * 16 + r.val, by omega⟩ : Fin 512) (⟨q.val % 32 * 16 + s.val, by omega⟩ : Fin 512) c

/-- The patches of an image batch, entry by entry. -/
def patches {α : Type} (x : Img.Idx → α) : Out.Idx → α :=
  fun j => x (src (j 0) (j 1) (j 2) (j 3) (j 4))

/-- Split both spatial axes, bring the block axes together, merge them: the patches. -/
theorem reshape_transpose_reshape {α : Type} (x : Img.Idx → α) (h1 : Img.ShapeCasts Split)
    (h2 : Split.Transposes [0, 1, 3, 2, 4, 5] Swapped) (h3 : Swapped.ShapeCasts Out) :
    shapeCast Out (transpose Swapped [0, 1, 3, 2, 4, 5] (shapeCast Split x h1) h2) h3 = patches x := by
  funext j
  have hq : (j 1).val < 1024 := (j 1).isLt
  have hr : (j 2).val < 16 := (j 2).isLt
  have hs : (j 3).val < 16 := (j 3).isLt
  have hc : (j 4).val < 3 := (j 4).isLt
  -- the patch number as (block row, block column)
  let bh : Fin 32 := ⟨(j 1).val / 32, by omega⟩
  let bw : Fin 32 := ⟨(j 1).val % 32, by omega⟩
  refine (shapeCast_apply _ h3 j (ix6 (j 0) bh bw (j 2) (j 3) (j 4)) ?_).trans ?_
  · rw [Shape.rowMajor_val_six, Shape.rowMajor_val_five]
    show (((((j 0).val * 32 + (j 1).val / 32) * 32 + (j 1).val % 32) * 16 + (j 2).val) * 16 + (j 3).val) * 3 + (j 4).val
      = ((((j 0).val * 1024 + (j 1).val) * 16 + (j 2).val) * 16 + (j 3).val) * 3 + (j 4).val
    omega
  refine (transpose_apply _ _ h2 _ (ix6 (j 0) bh (j 2) bw (j 3) (j 4))
    (fun a => match a with | ⟨0, _⟩ => rfl | ⟨1, _⟩ => rfl | ⟨2, _⟩ => rfl | ⟨3, _⟩ => rfl | ⟨4, _⟩ => rfl | ⟨5, _⟩ => rfl)).trans ?_
  refine shapeCast_apply _ h1 _ (src (j 0) (j 1) (j 2) (j 3) (j 4)) ?_
  rw [Shape.rowMajor_val_six, Shape.rowMajor_val_four]
  show (((j 0).val * 512 + ((j 1).val / 32 * 16 + (j 2).val)) * 512 + ((j 1).val % 32 * 16 + (j 3).val)) * 3 + (j 4).val
    = (((((j 0).val * 32 + (j 1).val / 32) * 16 + (j 2).val) * 32 + (j 1).val % 32) * 16 + (j 3).val) * 3 + (j 4).val
  omega

end Cert.Patches
-- ==== Proof.PatchKernel.lean ====
/-
  What the kernel leaves in its result array: the patches of the image.

  The grid has one point per (image, strip of sixteen rows): point `t` is image `t / 32`, strip `t % 32`. It reads the
  strip `[1, 16, 512, 3]` and writes the strip's thirty-two patches as rows `32·(t % 32) … 32·(t % 32) + 31` of image
  `t / 32`'s patch list. Entry `(0, w, r, s, c)` of what the point writes is the strip's entry `(0, r, 16·w + s, c)`,
  that is the image's entry `(t / 32, 16·(t % 32) + r, 16·w + s, c)`: the entry `patches` names for patch
  `32·(t % 32) + w` (`written_eq`). Every patch index lies in exactly the block of the point
  `32·b + q / 32` (`covered`), so after the last point the whole array is `patches` of the image (`result_eq`, `run`).
-/
import proofs.«133557_j73143293051537_1_alg».proof.Proof.KernelValueP
import proofs.«133557_j73143293051537_1_alg».proof.Proof.PatchSpec

noncomputable section

open Idealize.ShloMosaic Idealize.ShloMosaic.TcCoe Idealize.SL.Sem
open Idealize.ShloMosaic.Pipeline (Dat)

namespace Cert.KernelIdeal.PatchValue

open Cert.KernelIdeal Cert.KernelIdeal.Gen Cert.KernelIdeal.ValueP

variable {F : FTy → Type} [FloatOps F]
variable (m : (ℓ : Loc nD τ sig) → Buf (Elt F) ℓ) (ρ : Dev nD → PrngReg)

theorem zeros4 : (![0, 0, 0, 0] : Fin 4 → Nat) = fun _ => 0 := funext fun a => by fin_cases a <;> rfl

/-- Where each point's blocks sit: both windows at (image `t / 32`, strip `t % 32`), nothing else moves. -/
theorem block_index : ∀ t : Fin cfg0.N,
    win0_0.index t (0 : Fin 4) = t.val / 32 ∧ win0_0.index t (1 : Fin 4) = t.val % 32
    ∧ win0_0.index t (2 : Fin 4) = 0 ∧ win0_0.index t (3 : Fin 4) = 0
    ∧ win0_1.index t (0 : Fin 5) = t.val / 32 ∧ win0_1.index t (1 : Fin 5) = t.val % 32
    ∧ win0_1.index t (2 : Fin 5) = 0 ∧ win0_1.index t (3 : Fin 5) = 0 ∧ win0_1.index t (4 : Fin 5) = 0 :=
  (by decide +kernel : ∀ t : Fin grid0.N, _)

/-- The body's result block, entry by entry: the strip read where the patch entry came from. -/
theorem body_apply (x0 : Vec F S1x16x512x3 .f32) (y : S1x32x16x16x3.Idx) : out0_1 x0 y = x0 (ix1_0 y) := by
  unfold out0_1
  rw [canon1_eq]
  show View.ld x0 r0_0 (ix1_0 y) = x0 (ix1_0 y)
  rw [View.ld_unit_zero (S := S1x16x512x3) zeros4]

/-- WHAT POINT `t` WRITES BACK is block `t` of the image's patches. -/
theorem written_eq (c : Dev nD) (t : Fin cfg0.N) :
    (dats m 0 c).flushed 1 t = ((cfg0.win 1).blk t).view.read (Elt F) (Cert.Patches.patches (V m c main_arg0)) := by
  rw [flushed1]
  obtain ⟨a0, a1, a2, a3, b0, b1, b2, b3, b4⟩ := block_index t
  funext j
  have hj0 : (j 0).val < 1 := (j 0).isLt
  have hj1 : (j 1).val < 32 := (j 1).isLt
  have hj2 : (j 2).val < 16 := (j 2).isLt
  have hj3 : (j 3).val < 16 := (j 3).isLt
  have hj4 : (j 4).val < 3 := (j 4).isLt
  show out0_1 (iblk m c 0 t) j = Cert.Patches.patches (V m c main_arg0) (((cfg0.win 1).blk t).view.emb j)
  refine (body_apply (iblk m c 0 t) j).trans ?_
  show V m c main_arg0 (((cfg0.win 0).blk t).view.emb (ix1_0 j)) = V m c main_arg0 (Cert.Patches.src _ _ _ _ _)
  refine congrArg (V m c main_arg0) (funext fun a => Fin.ext ?_)
  match a with
  | ⟨0, _⟩ =>
    show win0_0.index t (0 : Fin 4) * 1 + 1 * 0 = win0_1.index t (0 : Fin 5) * 1 + 1 * (j 0).val
    omega
  | ⟨1, _⟩ =>
    show win0_0.index t (1 : Fin 4) * 16 + 1 * (j 2).val
      = (win0_1.index t (1 : Fin 5) * 32 + 1 * (j 1).val) / 32 * 16 + (win0_1.index t (2 : Fin 5) * 16 + 1 * (j 2).val)
    omega
  | ⟨2, _⟩ =>
    show win0_0.index t (2 : Fin 4) * 512 + 1 * ((j 1).val * 16 + (j 3).val)
      = (win0_1.index t (1 : Fin 5) * 32 + 1 * (j 1).val) % 32 * 16 + (win0_1.index t (3 : Fin 5) * 16 + 1 * (j 3).val)
    omega
  | ⟨3, _⟩ =>
    show win0_0.index t (3 : Fin 4) * 3 + 1 * (j 4).val = win0_1.index t (4 : Fin 5) * 3 + 1 * (j 4).val
    omega

/-- An index of the result array is in point `t`'s block iff each coordinate is in the block's range on its axis. -/
theorem mem_block (t : Fin cfg0.N) (i : S64x1024x16x16x3.Idx) :
    i ∈ ((cfg0.win 1).blk t).view.set ↔ ∀ a : Fin 5, win0_1.index t a * S1x32x16x16x3.size a ≤ (i a).val
      ∧ (i a).val < win0_1.index t a * S1x32x16x16x3.size a + S1x32x16x16x3.size a := by
  show i ∈ ((View.whole main_v0).slice (win0_1.rect t)).set ↔ _
  rw [View.set_slice_whole, Rect.mem_set_unit]
  exact Iff.rfl

/-- Every patch entry is written by some point: entry `(b, q, …)` by the point of image `b`, strip `q / 32`. -/
theorem covered (i : S64x1024x16x16x3.Idx) :
    ∃ t : Fin cfg0.N, (cfg0.win 1).flush t = true ∧ i ∈ ((cfg0.win 1).blk t).view.set := by
  have hi0 : (i 0).val < 64 := (i 0).isLt
  have hi1 : (i 1).val < 1024 := (i 1).isLt
  have hi2 : (i 2).val < 16 := (i 2).isLt
  have hi3 : (i 3).val < 16 := (i 3).isLt
  have hi4 : (i 4).val < 3 := (i 4).isLt
  have hN : cfg0.N = 2048 := N_0
  let t : Fin cfg0.N := ⟨(i 0).val * 32 + (i 1).val / 32, by rw [hN]; omega⟩
  have ht : t.val = (i 0).val * 32 + (i 1).val / 32 := rfl
  obtain ⟨-, -, -, -, b0, b1, b2, b3, b4⟩ := block_index t
  refine ⟨t, flush0_1 t, ?_⟩
  rw [mem_block]
  intro a
  match a with
  | ⟨0, _⟩ =>
    show win0_1.index t (0 : Fin 5) * 1 ≤ (i 0).val ∧ (i 0).val < win0_1.index t (0 : Fin 5) * 1 + 1
    omega
  | ⟨1, _⟩ =>
    show win0_1.index t (1 : Fin 5) * 32 ≤ (i 1).val ∧ (i 1).val < win0_1.index t (1 : Fin 5) * 32 + 32
    omega
  | ⟨2, _⟩ =>
    show win0_1.index t (2 : Fin 5) * 16 ≤ (i 2).val ∧ (i 2).val < win0_1.index t (2 : Fin 5) * 16 + 16
    omega
  | ⟨3, _⟩ =>
    show win0_1.index t (3 : Fin 5) * 16 ≤ (i 3).val ∧ (i 3).val < win0_1.index t (3 : Fin 5) * 16 + 16
    omega
  | ⟨4, _⟩ =>
    show win0_1.index t (4 : Fin 5) * 3 ≤ (i 4).val ∧ (i 4).val < win0_1.index t (4 : Fin 5) * 3 + 3
    omega

/-- THE RESULT ARRAY after the run: the patches of the image as launched. -/
theorem result_eq (c : Dev nD) :
    (dats m 0 c).arrAt 1 cfg0.N = Cert.Patches.patches (m ((c : Thread nD τ).loc main_arg0)) :=
  (dats m 0 c).arrAt_eq_of_cover 1 (Cert.Patches.patches (V m c main_arg0)) (fun t _ => written_eq m c t) covered

/-- The run, read: the result array holds the image's patches, the image is unchanged. -/
theorem run : θ_run defs (onTc (τ := τ) (main (F := F))) ⟨m, fun _ => 0, ρ⟩ fun r => ∀ c : Dev nD,
      r.2.mem ((c : Thread nD τ).loc main_v0) = Cert.Patches.patches (m ((c : Thread nD τ).loc main_arg0))
      ∧ r.2.mem ((c : Thread nD τ).loc main_arg0) = m ((c : Thread nD τ).loc main_arg0) :=
  (θ_run defs _ _).mono (fun _ h c => ⟨(h c).1.trans (result_eq m c), (h c).2⟩) (run_blocks m ρ)

end Cert.KernelIdeal.PatchValue

end
-- ==== Proof.lean ====
/-
  Patch extraction `[64, 512, 512, 3] → [64, 1024, 16, 16, 3]`: a kernel that handles one strip of sixteen image rows
  per grid point, against a reference that reshapes, transposes and reshapes the whole batch.

  Both move entries and compute nothing: entry `(b, q, r, s, c)` of either result is the image's entry
  `(b, 16·(q / 32) + r, 16·(q % 32) + s, c)` (`Cert.Patches.patches`, Proof/PatchSpec.lean). For the reference this is
  three steps of row-major bookkeeping on its run's term (`reshape_transpose_reshape`). For the kernel, point
  `(b, h)` writes rows `32·h … 32·h + 31` of image `b`'s patch list from the strip of image rows `16·h … 16·h + 15`, each
  entry the one `patches` names, and the 64 × 32 blocks fill the array (Proof/PatchKernel.lean). The equality holds
  for every element type, so finiteness of the input is never used, and no float operation occurs, so the
  idealization changes nothing (`preserves` has no entry).
-/
import proofs.«133557_j73143293051537_1_alg».proof.Defs
import proofs.«133557_j73143293051537_1_alg».proof.Proof.Gen.Kernel
import proofs.«133557_j73143293051537_1_alg».proof.Proof.Gen.Kernel.Frame
import proofs.«133557_j73143293051537_1_alg».proof.Proof.Gen.KernelIdeal
import proofs.«133557_j73143293051537_1_alg».proof.Proof.Gen.KernelIdeal.Frame
import proofs.«133557_j73143293051537_1_alg».proof.Proof.Gen.ReferenceIdeal
import proofs.«133557_j73143293051537_1_alg».proof.Proof.Gen.Pre_finite_inputs
import proofs.«133557_j73143293051537_1_alg».proof.Proof.Gen.ReferenceIdeal.Run
import proofs.«133557_j73143293051537_1_alg».proof.Proof.PatchSpec
import proofs.«133557_j73143293051537_1_alg».proof.Proof.PatchKernel

noncomputable section

namespace Cert.Proof

open Idealize.ShloMosaic Idealize.ShloMosaic.TcCoe Idealize.SL.Sem

/-- The word-level kernel runs, faults nowhere and leaves the image as it was. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- The reference's three host operations run and leave the image as it was. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both results are the patches of the one image the two memories agree on. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Patches.patches (m ((c.tc : Thread Cert.KernelIdeal.nD Cert.KernelIdeal.τ).loc Cert.KernelIdeal.main_arg0)),
    Cert.KernelIdeal.PatchValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.Patches.reshape_transpose_reshape _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
